-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S3072x1024 : Shape := ⟨2, ![3072, 1024]⟩
abbrev S3072 : Shape := ⟨1, ![3072]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn_part1 {F : FTy → Type} [FloatOps F] (main_arg4 : FVec F S3072x1024 .f32) (main_arg5 : FVec F S3072 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S3072x1024 .f32 := Host.absf main_arg4
  let main_cst_6 : FVec F S_ .f32 := constant S_ .f32 0x7F800000#32
  let main_v20 : FVec F S3072x1024 .f32 := broadcastInDim S3072x1024 ![] bcast_S_S3072x1024 main_cst_6
  let main_v21 : IVec S3072x1024 1 := cmpf .olt main_v19 main_v20
  let main_c_7 : IVec S_ 1 := constantI S_ 1 1#1
  let main_v22 : IVec S_ 1 := (fun x v => Host.reduce IntOp.andi x v reducesTo_S3072x1024_S_d0_1 h_S_) main_v21 main_c_7
  let main_v23 : IVec S_ 1 := andi main_v18 main_v22
  let main_v24 : FVec F S3072 .f32 := Host.absf main_arg5
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  main_v28

def fn {F : FTy → Type} [FloatOps F] (main_arg0 : FVec F S16384x1024 .f32) (main_arg1 : FVec F S16384x1024 .f32) (main_arg2 : FVec F S3072x1024 .f32) (main_arg3 : FVec F S3072 .f32) (main_arg4 : FVec F S3072x1024 .f32) (main_arg5 : FVec F S3072 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_v13 main_v16
-- ==== Kernel.lean ====
abbrev S16384x1024 : Shape := ⟨2, ![16384, 1024]⟩
abbrev S3072x1024 : Shape := ⟨2, ![3072, 1024]⟩
abbrev S3072 : Shape := ⟨1, ![3072]⟩
abbrev S2048x1024 : Shape := ⟨2, ![2048, 1024]⟩
abbrev S1024x2048 : Shape := ⟨2, ![1024, 2048]⟩
abbrev S2048x2048 : Shape := ⟨2, ![2048, 2048]⟩
abbrev S2048 : Shape := ⟨1, ![2048]⟩
abbrev S1x2048 : Shape := ⟨2, ![1, 2048]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x2048 : Shape := ⟨2, ![512, 2048]⟩

abbrev nBuf : Space → Nat
  | .hbm => 27
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S3072x1024, .f32⟩
  | .hbm, ⟨3, _⟩ => ⟨S3072, .f32⟩
  | .hbm, ⟨4, _⟩ => ⟨S3072x1024, .f32⟩
  | .hbm, ⟨5, _⟩ => ⟨S3072, .f32⟩
  | .hbm, ⟨6, _⟩ => ⟨S2048x1024, .f32⟩
  | .hbm, ⟨7, _⟩ => ⟨S2048x1024, .f32⟩
  | .hbm, ⟨8, _⟩ => ⟨S1024x2048, .f32⟩
  | .hbm, ⟨9, _⟩ => ⟨S1024x2048, .f32⟩
  | .hbm, ⟨10, _⟩ => ⟨S2048x2048, .f32⟩
  | .hbm, ⟨11, _⟩ => ⟨S2048x2048, .bf16⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S1x2048, .f32⟩
  | .hbm, ⟨16, _⟩ => ⟨S1024x1024, .f32⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .f32⟩
  | .hbm, ⟨21, _⟩ => ⟨S1024x1024, .bf16⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S2048x2048, .bf16⟩
  | .local _ .vmem, ⟨5, _⟩ => ⟨S1x2048, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S3072x1024_S2048x1024_0_0 : S3072x1024.Slices ![0, 0] S2048x1024
  transposes_S2048x1024_S1024x2048_1_0 : S2048x1024.Transposes [1, 0] S1024x2048
  concatenates_S1024x2048_S1024x2048_S2048x2048_d0 : Shape.Concatenates [S1024x2048, S1024x2048] S2048x2048 0
  bitsLt_bf16_f32 : FTy.bits .bf16 < FTy.bits .f32
  slices_S3072_S2048_0 : S3072.Slices ![0] S2048
  shapeCasts_S2048_S1x2048 : S2048.ShapeCasts S1x2048
  slices_S3072x1024_S1024x1024_2048_0 : S3072x1024.Slices ![2048, 0] S1024x1024
  transposes_S1024x1024_S1024x1024_1_0 : S1024x1024.Transposes [1, 0] S1024x1024
  slices_S3072_S1024_2048 : S3072.Slices ![2048] S1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  concatenates_S512x1024_S512x1024_S512x2048_d1 : Shape.Concatenates [S512x1024, S512x1024] S512x2048 1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x1024 : S512x2048.Slices ![0, 0] S512x1024
  slices_S512x2048_o0_1024_S512x1024 : S512x2048.Slices ![0, 1024] S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x2048_S2048x2048_S512x2048_1_0_0_1_n_n_wf : DotDims.WF S512x2048 S2048x2048 S512x2048 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S16384x1024.size a
  hwx0_8 : ∀ i : grid0.Coords, EltTy.bits .f32 = 32 ∨ (Rect.block (s := S16384x1024) S512x1024.size (cc0_transform_8 i) (hinb0_8 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S512x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S3072x1024 : Shape := ⟨2, ![3072, 1024]⟩
abbrev S3072 : Shape := ⟨1, ![3072]⟩
abbrev S1024x3072 : Shape := ⟨2, ![1024, 3072]⟩
abbrev S16384x3072 : Shape := ⟨2, ![16384, 3072]⟩
abbrev S1x3072 : Shape := ⟨2, ![1, 3072]⟩
abbrev S_ : Shape := ⟨0, ![]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S3072x1024, .f32⟩
  | .hbm, ⟨3, _⟩ => ⟨S3072, .f32⟩
  | .hbm, ⟨4, _⟩ => ⟨S3072x1024, .f32⟩
  | .hbm, ⟨5, _⟩ => ⟨S3072, .f32⟩
  | .hbm, ⟨6, _⟩ => ⟨S1024x3072, .f32⟩
  | .hbm, ⟨7, _⟩ => ⟨S16384x3072, .f32⟩
  | .hbm, ⟨8, _⟩ => ⟨S1x3072, .f32⟩
  | .hbm, ⟨9, _⟩ => ⟨S16384x3072, .f32⟩
  | .hbm, ⟨10, _⟩ => ⟨S16384x3072, .f32⟩
  | .hbm, ⟨11, _⟩ => ⟨S1024x3072, .f32⟩
  | .hbm, ⟨12, _⟩ => ⟨S16384x3072, .f32⟩
  | .hbm, ⟨13, _⟩ => ⟨S1x3072, .f32⟩
  | .hbm, ⟨14, _⟩ => ⟨S16384x3072, .f32⟩
  | .hbm, ⟨15, _⟩ => ⟨S16384x3072, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S1024x1024, .f32⟩
  | .hbm, ⟨41, _⟩ => ⟨S1024, .f32⟩
  | .hbm, ⟨42, _⟩ => ⟨S16384x1024, .f32⟩
  | .hbm, ⟨43, _⟩ => ⟨S1024x1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]

class Facts₀ : Prop where
  transposes_S3072x1024_S1024x3072_1_0 : S3072x1024.Transposes [1, 0] S1024x3072
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  slices_S16384x3072_S16384x1024_0_0 : S16384x3072.Slices ![0, 0] S16384x1024
  slices_S16384x3072_S16384x1024_0_1024 : S16384x3072.Slices ![0, 1024] S16384x1024
  slices_S16384x3072_S16384x1024_0_2048 : S16384x3072.Slices ![0, 2048] S16384x1024
  bcast_S_S16384x1024 : S_.BroadcastsInDim S16384x1024 (![] : Fin 0 → Fin S16384x1024.rank)
  slices_S3072x1024_S1024x1024_2048_0 : S3072x1024.Slices ![2048, 0] S1024x1024
  slices_S3072_S1024_2048 : S3072.Slices ![2048] S1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x1024_S1024x3072_S16384x3072_1_0_0_1_n_n_wf : DotDims.WF S16384x1024 S1024x3072 S16384x3072 [1] [0] [0] [1] [] []
  dot_S16384x1024_S1024x1024_S16384x1024_1_0_0_1_n_n_wf : DotDims.WF S16384x1024 S1024x1024 S16384x1024 [1] [0] [0] [1] [] []

variable [Facts₀]

def dot_S16384x1024_S1024x3072_S16384x3072_1_0_0_1_n_n : DotDims S16384x1024 S1024x3072 S16384x3072 where
  lhsContracting := [1]
  rhsContracting := [0]
  lhsNonContracting := [0]
  rhsNonContracting := [1]
  lhsBatch := []
  rhsBatch := []
  wf := dot_S16384x1024_S1024x3072_S16384x3072_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.Spec.lean ====
/-
  The arithmetic both programs compute, stated once, away from either program.

  One output entry of the gated recurrent cell depends on ONE row of the input `x`, the same row of the state `h`,
  and the weights. With `σ y = 1 / (1 + e^(-y))` on the extended reals:
    g j   = (⟨x, Wi j⟩ + bi j) + (⟨h, Wh j⟩ + bh j)                        for j < 2048   (reset and update gates)
    r k   = σ (g k),   z q = σ (g (1024 + q))
    n q   = σ ((⟨x, Wi (2048+q)⟩ + bi (2048+q)) + (⟨h ⊙ r, Wh (2048+q)⟩ + bh (2048+q)))
    out q = h q + ((1 - h q) · z q) · n q
  (`spec`). The kernel computes the same entry from PREPARED operands (`cell`): the first two gate blocks of `Wi` and
  `Wh` transposed and stacked into one 2048 × 2048 matrix that multiplies the row `[x | h]`, the two bias vectors of
  those blocks added beforehand, the third blocks transposed. `cell_eq_spec` joins the two: a sum over the 2048 stacked
  lanes is the sum over the first 1024 plus the sum over the last 1024, and `(A + B) + (c + d) = (A + c) + (B + d)`
  holds in every commutative monoid, the extended reals included — no finiteness is needed.
-/
import Idealize.ShloMosaic.PureOps.Ideal
import Idealize.ShloMosaic.Lib.ValueIdx
import Mathlib.Algebra.BigOperators.Fin

noncomputable section

namespace Cert.Gru

open Idealize.ShloMosaic Idealize.ShloMosaic.ValueIdx

/-- The logistic function on the extended reals. -/
abbrev σ (y : EReal) : EReal := Ideal.logistic y

/-! ## The cell over the arguments -/

/-- The inner product of a row with row `j` of a 3072 × 1024 weight matrix. -/
def lin (u : Fin 1024 → EReal) (W : (⟨2, ![3072, 1024]⟩ : Shape).Idx → EReal) (j : Fin 3072) : EReal :=
  ∑ k : Fin 1024, u k * W (ix2 j k)

/-- Pre-activation `j` of the input side plus that of the state side, each with its bias. -/
def gate (xr hr : Fin 1024 → EReal) (Wi Wh : (⟨2, ![3072, 1024]⟩ : Shape).Idx → EReal)
    (bi bh : (⟨1, ![3072]⟩ : Shape).Idx → EReal) (j : Fin 3072) : EReal :=
  (lin xr Wi j + bi (ix1 j)) + (lin hr Wh j + bh (ix1 j))

/-- The reset gate at lane `k`. -/
def reset (xr hr : Fin 1024 → EReal) (Wi Wh : (⟨2, ![3072, 1024]⟩ : Shape).Idx → EReal)
    (bi bh : (⟨1, ![3072]⟩ : Shape).Idx → EReal) (k : Fin 1024) : EReal :=
  σ (gate xr hr Wi Wh bi bh ⟨k.val, by omega⟩)

/-- Output entry `q` of the cell from row `xr` of the input and row `hr` of the state. -/
def spec (xr hr : Fin 1024 → EReal) (Wi Wh : (⟨2, ![3072, 1024]⟩ : Shape).Idx → EReal)
    (bi bh : (⟨1, ![3072]⟩ : Shape).Idx → EReal) (q : Fin 1024) : EReal :=
  hr q + ((1 - hr q) * σ (gate xr hr Wi Wh bi bh ⟨1024 + q.val, by omega⟩))
    * σ ((lin xr Wi ⟨2048 + q.val, by omega⟩ + bi (ix1 ⟨2048 + q.val, by omega⟩))
        + (lin (fun k => hr k * reset xr hr Wi Wh bi bh k) Wh ⟨2048 + q.val, by omega⟩ + bh (ix1 ⟨2048 + q.val, by omega⟩)))

/-- Row `b` of a 16384 × 1024 array. -/
def row (x : (⟨2, ![16384, 1024]⟩ : Shape).Idx → EReal) (b : Fin 16384) : Fin 1024 → EReal := fun k => x (ix2 b k)

/-- The whole result: entry (b, q) is the cell's output `q` on row `b` of the input and of the state. -/
def specArr (x h : (⟨2, ![16384, 1024]⟩ : Shape).Idx → EReal) (Wi Wh : (⟨2, ![3072, 1024]⟩ : Shape).Idx → EReal)
    (bi bh : (⟨1, ![3072]⟩ : Shape).Idx → EReal) : (⟨2, ![16384, 1024]⟩ : Shape).Idx → EReal :=
  fun i => spec (row x (i 0)) (row h (i 0)) Wi Wh bi bh (i 1)

/-! ## The cell over the prepared operands -/

/-- Two rows side by side: lanes 0–1023 from `u`, lanes 1024–2047 from `v`. -/
def cat (u v : Fin 1024 → EReal) (k : Fin 2048) : EReal :=
  if h : k.val < 1024 then u ⟨k.val, h⟩ else v ⟨k.val - 1024, by omega⟩

/-- A sum over the stacked lanes is the sum over the first half plus the sum over the second. -/
theorem sum_cat (u v : Fin 1024 → EReal) (W : Fin 2048 → EReal) :
    ∑ k : Fin 2048, cat u v k * W k
      = ∑ k : Fin 1024, u k * W ⟨k.val, by omega⟩ + ∑ k : Fin 1024, v k * W ⟨1024 + k.val, by omega⟩ := by
  refine (Fin.sum_univ_add (M := EReal) (a := 1024) (b := 1024) (fun k => cat u v k * W k)).trans ?_
  refine congrArg₂ (· + ·) (Finset.sum_congr rfl fun k _ => ?_) (Finset.sum_congr rfl fun k _ => ?_)
  · have hk : (Fin.castAdd 1024 k : Fin (1024 + 1024)).val < 1024 := k.isLt
    show cat u v (Fin.castAdd 1024 k) * W (Fin.castAdd 1024 k) = _
    unfold cat
    rw [dif_pos hk]
    rfl
  · have hk : ¬ (Fin.natAdd 1024 k : Fin (1024 + 1024)).val < 1024 := by simp
    show cat u v (Fin.natAdd 1024 k) * W (Fin.natAdd 1024 k) = _
    unfold cat
    rw [dif_neg hk]
    congr 1
    exact congrArg v (Fin.ext (by simp))

/-- The stacked pre-activation `j` (reset for `j < 1024`, update from 1024 on): the row `[x | h]` against column `j` of the
    stacked matrix, plus the summed bias. -/
def stacked (xr hr : Fin 1024 → EReal) (Wst : (⟨2, ![2048, 2048]⟩ : Shape).Idx → EReal)
    (bst : (⟨2, ![1, 2048]⟩ : Shape).Idx → EReal) (j : Fin 2048) : EReal :=
  (∑ k : Fin 2048, cat xr hr k * Wst (ix2 k j)) + bst (ix2 0 j)

/-- Output entry `q` of the cell from the rows and the six prepared operands. -/
def cell (xr hr : Fin 1024 → EReal) (Wst : (⟨2, ![2048, 2048]⟩ : Shape).Idx → EReal)
    (bst : (⟨2, ![1, 2048]⟩ : Shape).Idx → EReal) (Win Whn : (⟨2, ![1024, 1024]⟩ : Shape).Idx → EReal)
    (bin bhn : (⟨2, ![1, 1024]⟩ : Shape).Idx → EReal) (q : Fin 1024) : EReal :=
  hr q + ((1 - hr q) * σ (stacked xr hr Wst bst ⟨1024 + q.val, by omega⟩))
    * σ (((∑ k : Fin 1024, xr k * Win (ix2 k q)) + bin (ix2 0 q))
        + ((∑ k : Fin 1024, (hr k * σ (stacked xr hr Wst bst ⟨k.val, by omega⟩)) * Whn (ix2 k q)) + bhn (ix2 0 q)))

/-- The stacked pre-activation is the argument-level one, when the stacked matrix holds the transposed gate blocks and
    the stacked bias their sum. -/
theorem stacked_eq_gate (xr hr : Fin 1024 → EReal) (Wi Wh : (⟨2, ![3072, 1024]⟩ : Shape).Idx → EReal)
    (bi bh : (⟨1, ![3072]⟩ : Shape).Idx → EReal) (Wst : (⟨2, ![2048, 2048]⟩ : Shape).Idx → EReal)
    (bst : (⟨2, ![1, 2048]⟩ : Shape).Idx → EReal)
    (hWi : ∀ (k : Fin 1024) (j : Fin 2048), Wst (ix2 (⟨k.val, by omega⟩ : Fin 2048) j) = Wi (ix2 (⟨j.val, by omega⟩ : Fin 3072) k))
    (hWh : ∀ (k : Fin 1024) (j : Fin 2048), Wst (ix2 (⟨1024 + k.val, by omega⟩ : Fin 2048) j) = Wh (ix2 (⟨j.val, by omega⟩ : Fin 3072) k))
    (hb : ∀ j : Fin 2048, bst (ix2 0 j) = bi (ix1 (⟨j.val, by omega⟩ : Fin 3072)) + bh (ix1 (⟨j.val, by omega⟩ : Fin 3072)))
    (j : Fin 2048) : stacked xr hr Wst bst j = gate xr hr Wi Wh bi bh ⟨j.val, by omega⟩ := by
  unfold stacked gate lin
  rw [sum_cat xr hr (fun k => Wst (ix2 k j)), hb j]
  simp only [hWi, hWh]
  exact add_add_add_comm _ _ _ _

/-- The kernel's entry is the specification's, under the same reading of the prepared operands. -/
theorem cell_eq_spec (xr hr : Fin 1024 → EReal) (Wi Wh : (⟨2, ![3072, 1024]⟩ : Shape).Idx → EReal)
    (bi bh : (⟨1, ![3072]⟩ : Shape).Idx → EReal) (Wst : (⟨2, ![2048, 2048]⟩ : Shape).Idx → EReal)
    (bst : (⟨2, ![1, 2048]⟩ : Shape).Idx → EReal) (Win Whn : (⟨2, ![1024, 1024]⟩ : Shape).Idx → EReal)
    (bin bhn : (⟨2, ![1, 1024]⟩ : Shape).Idx → EReal)
    (hWi : ∀ (k : Fin 1024) (j : Fin 2048), Wst (ix2 (⟨k.val, by omega⟩ : Fin 2048) j) = Wi (ix2 (⟨j.val, by omega⟩ : Fin 3072) k))
    (hWh : ∀ (k : Fin 1024) (j : Fin 2048), Wst (ix2 (⟨1024 + k.val, by omega⟩ : Fin 2048) j) = Wh (ix2 (⟨j.val, by omega⟩ : Fin 3072) k))
    (hb : ∀ j : Fin 2048, bst (ix2 0 j) = bi (ix1 (⟨j.val, by omega⟩ : Fin 3072)) + bh (ix1 (⟨j.val, by omega⟩ : Fin 3072)))
    (hWin : ∀ k q : Fin 1024, Win (ix2 k q) = Wi (ix2 (⟨2048 + q.val, by omega⟩ : Fin 3072) k))
    (hWhn : ∀ k q : Fin 1024, Whn (ix2 k q) = Wh (ix2 (⟨2048 + q.val, by omega⟩ : Fin 3072) k))
    (hbin : ∀ q : Fin 1024, bin (ix2 0 q) = bi (ix1 (⟨2048 + q.val, by omega⟩ : Fin 3072)))
    (hbhn : ∀ q : Fin 1024, bhn (ix2 0 q) = bh (ix1 (⟨2048 + q.val, by omega⟩ : Fin 3072)))
    (q : Fin 1024) : cell xr hr Wst bst Win Whn bin bhn q = spec xr hr Wi Wh bi bh q := by
  have hs := stacked_eq_gate xr hr Wi Wh bi bh Wst bst hWi hWh hb
  unfold cell spec reset lin
  simp only [hs, hWin, hWhn, hbin, hbhn]

end Cert.Gru

end
-- ==== Proof.RefSpec.lean ====
/-
  The reference program computes the specification.

  Its stages are read one at a time at an index: each of the two full products `x · Wiᵀ` and `h · Whᵀ` is an inner
  product of a row with a weight row, the biases are broadcast along the rows, the three column blocks are slices at
  offsets 0, 1024 and 2048, the logistic function appears expanded as `1 / (1 + e^(-y))`, and the candidate's state-side
  product uses rows 2048… of `Wh` only. Put together the final stage at (b, q) is `spec` on row `b`.
-/
import proofs.«420946_j21973052686473_3_alg».proof.Proof.Gen.ReferenceIdeal.Read
import proofs.«420946_j21973052686473_3_alg».proof.Proof.Spec
import Idealize.ShloMosaic.Lib.IdealHost

noncomputable section

namespace Cert.Gru.Ref

open Cert.ReferenceIdeal Cert.ReferenceIdeal.Read Idealize.ShloMosaic Idealize.ShloMosaic.ValueIdx Cert.Gru

variable (x0 x1 : FVec Ideal S16384x1024 .f32) (x2 x4 : FVec Ideal S3072x1024 .f32) (x3 x5 : FVec Ideal S3072 .f32)

/-- jax's expansion of the logistic function on the host, with the constant one as its f32 word, is the logistic
    function of the extended reals. -/
theorem host_logistic (y : EReal) :
    FloatOps.hostDivf (F := Ideal) (φ := .f32) (FloatOps.ofBits .f32 0x3F800000#32)
      (FloatOps.addf (FloatOps.ofBits .f32 0x3F800000#32) (FloatOps.hostUnary .exp (FloatOps.hostNegf y))) = σ y := by
  show Ideal.div (Ideal.ofBits .f32 0x3F800000#32) (Ideal.ofBits .f32 0x3F800000#32 + Ideal.exp (-y)) = Ideal.logistic y
  rw [Ideal.ofBits_one_f32]
  rfl

/-- Entry (b, j) of `x · Wiᵀ + bi`: the inner product of row `b` with weight row `j`, plus bias `j`. -/
theorem gi_apply (j : S16384x3072.Idx) :
    val_main_v4 (F := Ideal) x0 x2 x3 j = lin (row x0 (j 0)) x2 (j 1) + x3 (ix1 (j 1)) := by
  have e1 : ∀ k : Fin 1024, lidx_main_v1 j k = ix2 (j 0) k := fun k => funext fun a => by
    match a with
    | ⟨0, _⟩ => rfl
    | ⟨1, _⟩ => rfl
  have e2 : ∀ k : Fin 1024, idx_main_v0 (ridx_main_v1 j k) = ix2 (j 1) k := fun k => funext fun a => by
    match a with
    | ⟨0, _⟩ => rfl
    | ⟨1, _⟩ => rfl
  have e3 : idx_main_v2 (idx_main_v3 j) = ix1 (j 1) := funext fun a => by
    match a with
    | ⟨0, _⟩ => rfl
  rw [val_main_v4_apply, val_main_v1_apply, val_main_v3_apply, val_main_v2_apply, e3]
  simp only [val_main_v0_apply, e1, e2]
  rfl

/-- Entry (b, j) of `h · Whᵀ + bh`. -/
theorem gh_apply (j : S16384x3072.Idx) :
    val_main_v9 (F := Ideal) x1 x4 x5 j = lin (row x1 (j 0)) x4 (j 1) + x5 (ix1 (j 1)) := by
  have e1 : ∀ k : Fin 1024, lidx_main_v6 j k = ix2 (j 0) k := fun k => funext fun a => by
    match a with
    | ⟨0, _⟩ => rfl
    | ⟨1, _⟩ => rfl
  have e2 : ∀ k : Fin 1024, idx_main_v5 (ridx_main_v6 j k) = ix2 (j 1) k := fun k => funext fun a => by
    match a with
    | ⟨0, _⟩ => rfl
    | ⟨1, _⟩ => rfl
  have e3 : idx_main_v7 (idx_main_v8 j) = ix1 (j 1) := funext fun a => by
    match a with
    | ⟨0, _⟩ => rfl
  rw [val_main_v9_apply, val_main_v6_apply, val_main_v8_apply, val_main_v7_apply, e3]
  simp only [val_main_v5_apply, e1, e2]
  rfl

/-- The reset gate's pre-activation at (b, q). -/
theorem pre_r_apply (i : S16384x1024.Idx) :
    val_main_v16 (F := Ideal) x0 x1 x2 x3 x4 x5 i = gate (row x0 (i 0)) (row x1 (i 0)) x2 x4 x3 x5 ⟨(i 1).val, by have h1 : (i 1).val < 1024 := (i 1).isLt; omega⟩ := by
  rw [val_main_v16_apply, val_main_v10_apply, val_main_v13_apply, gi_apply, gh_apply]
  rfl

/-- The update gate's pre-activation at (b, q): column 1024 + q. -/
theorem pre_z_apply (i : S16384x1024.Idx) :
    val_main_v23 (F := Ideal) x0 x1 x2 x3 x4 x5 i = gate (row x0 (i 0)) (row x1 (i 0)) x2 x4 x3 x5 ⟨1024 + (i 1).val, by have h1 : (i 1).val < 1024 := (i 1).isLt; omega⟩ := by
  rw [val_main_v23_apply, val_main_v11_apply, val_main_v14_apply, gi_apply, gh_apply]
  rfl

/-- The reset gate at (b, q). -/
theorem r_apply (i : S16384x1024.Idx) :
    val_main_v22 (F := Ideal) x0 x1 x2 x3 x4 x5 i = reset (row x0 (i 0)) (row x1 (i 0)) x2 x4 x3 x5 (i 1) := by
  rw [val_main_v22_apply, val_main_v21_apply, val_main_cst_0_apply, val_main_v20_apply, val_main_v19_apply,
    val_main_cst_apply, val_main_v18_apply, val_main_v17_apply, host_logistic, pre_r_apply]
  rfl

/-- The update gate at (b, q). -/
theorem z_apply (i : S16384x1024.Idx) :
    val_main_v29 (F := Ideal) x0 x1 x2 x3 x4 x5 i
      = σ (gate (row x0 (i 0)) (row x1 (i 0)) x2 x4 x3 x5 ⟨1024 + (i 1).val, by have h1 : (i 1).val < 1024 := (i 1).isLt; omega⟩) := by
  rw [val_main_v29_apply, val_main_v28_apply, val_main_cst_2_apply, val_main_v27_apply, val_main_v26_apply,
    val_main_cst_1_apply, val_main_v25_apply, val_main_v24_apply, host_logistic, pre_z_apply]

/-- The candidate's state-side term at (b, q): the row `h ⊙ r` against row 2048 + q of `Wh`, plus bias 2048 + q. -/
theorem hn_apply (i : S16384x1024.Idx) :
    val_main_v37 (F := Ideal) x0 x1 x2 x3 x4 x5 i
      = lin (fun k => row x1 (i 0) k * reset (row x0 (i 0)) (row x1 (i 0)) x2 x4 x3 x5 k) x4 ⟨2048 + (i 1).val, by have h1 : (i 1).val < 1024 := (i 1).isLt; omega⟩
        + x5 (ix1 ⟨2048 + (i 1).val, by have h1 : (i 1).val < 1024 := (i 1).isLt; omega⟩) := by
  have e1 : ∀ k : Fin 1024, lidx_main_v34 i k = ix2 (i 0) k := fun k => funext fun a => by
    match a with
    | ⟨0, _⟩ => rfl
    | ⟨1, _⟩ => rfl
  have e2 : ∀ k : Fin 1024, idx_main_v30 (idx_main_v33 (ridx_main_v34 i k))
      = ix2 (⟨2048 + (i 1).val, by have h1 : (i 1).val < 1024 := (i 1).isLt; omega⟩ : Fin 3072) k := fun k => funext fun a => by
    match a with
    | ⟨0, _⟩ => rfl
    | ⟨1, _⟩ => rfl
  have e3 : idx_main_v31 (idx_main_v35 (idx_main_v36 i)) = ix1 (⟨2048 + (i 1).val, by have h1 : (i 1).val < 1024 := (i 1).isLt; omega⟩ : Fin 3072) :=
    funext fun a => by
      match a with
      | ⟨0, _⟩ => rfl
  have hs : ∀ k : Fin 1024,
      val_main_v32 (F := Ideal) x0 x1 x2 x3 x4 x5 (lidx_main_v34 i k) * val_main_v33 (F := Ideal) x4 (ridx_main_v34 i k)
        = (row x1 (i 0) k * reset (row x0 (i 0)) (row x1 (i 0)) x2 x4 x3 x5 k)
          * x4 (ix2 (⟨2048 + (i 1).val, by have h1 : (i 1).val < 1024 := (i 1).isLt; omega⟩ : Fin 3072) k) := fun k => by
    rw [val_main_v32_apply, r_apply, val_main_v33_apply, val_main_v30_apply, e2 k, e1 k]
    rfl
  rw [val_main_v37_apply, val_main_v34_apply, val_main_v36_apply, val_main_v35_apply, val_main_v31_apply, e3,
    Finset.sum_congr rfl fun k _ => hs k]
  rfl

/-- The reference's result array is the specification of its argument arrays. -/
theorem result_eq : val_main_v49 (F := Ideal) x0 x1 x2 x3 x4 x5 = specArr x0 x1 x2 x4 x3 x5 := by
  funext i
  have e12 : idx_main_v12 i = ix2 (i 0) (⟨2048 + (i 1).val, by have h1 : (i 1).val < 1024 := (i 1).isLt; omega⟩ : Fin 3072) := funext fun a => by
    match a with
    | ⟨0, _⟩ => rfl
    | ⟨1, _⟩ => rfl
  rw [val_main_v49_apply, val_main_v48_apply, val_main_v47_apply, val_main_v46_apply, val_main_v45_apply,
    val_main_cst_5_apply, z_apply, val_main_v44_apply, val_main_v43_apply, val_main_cst_4_apply, val_main_v42_apply,
    val_main_v41_apply, val_main_cst_3_apply, val_main_v40_apply, val_main_v39_apply, host_logistic, val_main_v38_apply,
    val_main_v12_apply, gi_apply, hn_apply, e12]
  show x1 i + ((Ideal.ofBits .f32 0x3F800000#32 - x1 i) * _) * _ = _
  rw [Ideal.ofBits_one_f32]
  have hi : i = ix2 (i 0) (i 1) := eq_ix2 i
  unfold specArr spec
  conv_lhs => rw [hi]
  rfl

end Cert.Gru.Ref

end
-- ==== Proof.Matmul.lean ====
/-
  The kernel's two matrix products read at an index, at the ideal values: a product accumulated into a zero splat is,
  at output entry (p, j), the plain sum over the contracted axis of left(p, k) · right(k, j).
-/
import proofs.«420946_j21973052686473_3_alg».proof.Proof.Gen.KernelIdeal
import Idealize.ShloMosaic.Lib.ValueIdx
import Idealize.ShloMosaic.PureOps.Ideal.Laws

noncomputable section

namespace Cert.Gru.Kernel

open Cert.KernelIdeal Idealize.ShloMosaic Idealize.ShloMosaic.ValueIdx

theorem lhs_wide_0 (i : S512x2048.Idx) (q : dot_S512x2048_S2048x2048_S512x2048_1_0_0_1_n_n.contr.Idx) :
    (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
theorem lhs_wide_1 (i : S512x2048.Idx) (q : dot_S512x2048_S2048x2048_S512x2048_1_0_0_1_n_n.contr.Idx) :
    (dot_S512x2048_S2048x2048_S512x2048_1_0_0_1_n_n.lhsIdx i q 1).val = (q ⟨0, by decide⟩).val :=
  dot_S512x2048_S2048x2048_S512x2048_1_0_0_1_n_n.lhsIdx_val_of_single rfl i q
theorem rhs_wide_0 (i : S512x2048.Idx) (q : dot_S512x2048_S2048x2048_S512x2048_1_0_0_1_n_n.contr.Idx) :
    (dot_S512x2048_S2048x2048_S512x2048_1_0_0_1_n_n.rhsIdx i q 0).val = (q ⟨0, by decide⟩).val :=
  dot_S512x2048_S2048x2048_S512x2048_1_0_0_1_n_n.rhsIdx_val_of_single rfl i q
theorem rhs_wide_1 (i : S512x2048.Idx) (q : dot_S512x2048_S2048x2048_S512x2048_1_0_0_1_n_n.contr.Idx) :
    (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

theorem lhs_sq_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_sq_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_sq_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_sq_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Entry (p, j) of the product into a zero accumulator: the sum over the 2048 contracted lanes of the left operand's row
    `p` times the right operand's column `j`. -/
theorem matmul_wide_apply {φ₁ φ₂ : FTy} (lhs : FVec Ideal S512x2048 φ₁) (rhs : FVec Ideal S2048x2048 φ₂) (i : S512x2048.Idx) :
    matmul dot_S512x2048_S2048x2048_S512x2048_1_0_0_1_n_n none lhs rhs (constant S512x2048 .f32 0x00000000#32) i
      = ∑ k : Fin 2048, lhs (ix2 (i 0) k) * rhs (ix2 k (i 1)) := by
  simp only [matmul]
  rw [Ideal.matmul_constant_zero_apply, ← Equiv.sum_comp (ValueIdx.contrEquiv1 dot_S512x2048_S2048x2048_S512x2048_1_0_0_1_n_n 2048 rfl rfl).symm]
  refine Finset.sum_congr rfl fun k _ => ?_
  have hk := ValueIdx.contrEquiv1_symm_val dot_S512x2048_S2048x2048_S512x2048_1_0_0_1_n_n 2048 rfl rfl k
  have el : dot_S512x2048_S2048x2048_S512x2048_1_0_0_1_n_n.lhsIdx i ((ValueIdx.contrEquiv1 dot_S512x2048_S2048x2048_S512x2048_1_0_0_1_n_n 2048 rfl rfl).symm k) = ix2 (i 0) k := funext fun a => Fin.ext (by
    match a with
    | ⟨0, _⟩ => exact lhs_wide_0 _ _
    | ⟨1, _⟩ => exact (lhs_wide_1 _ _).trans hk)
  have er : dot_S512x2048_S2048x2048_S512x2048_1_0_0_1_n_n.rhsIdx i ((ValueIdx.contrEquiv1 dot_S512x2048_S2048x2048_S512x2048_1_0_0_1_n_n 2048 rfl rfl).symm k) = ix2 k (i 1) := funext fun a => Fin.ext (by
    match a with
    | ⟨0, _⟩ => exact (rhs_wide_0 _ _).trans hk
    | ⟨1, _⟩ => exact rhs_wide_1 _ _)
  rw [el, er]
  rfl

/-- Entry (p, j) of the product into a zero accumulator: the sum over the 1024 contracted lanes of the left operand's row
    `p` times the right operand's column `j`. -/
theorem matmul_sq_apply {φ₁ φ₂ : FTy} (lhs : FVec Ideal S512x1024 φ₁) (rhs : FVec Ideal S1024x1024 φ₂) (i : S512x1024.Idx) :
    matmul dot_S512x1024_S1024x1024_S512x1024_1_0_0_1_n_n none lhs rhs (constant S512x1024 .f32 0x00000000#32) i
      = ∑ k : Fin 1024, lhs (ix2 (i 0) k) * rhs (ix2 k (i 1)) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx i ((ValueIdx.contrEquiv1 dot_S512x1024_S1024x1024_S512x1024_1_0_0_1_n_n 1024 rfl rfl).symm k) = ix2 (i 0) k := funext fun a => Fin.ext (by
    match a with
    | ⟨0, _⟩ => exact lhs_sq_0 _ _
    | ⟨1, _⟩ => exact (lhs_sq_1 _ _).trans hk)
  have er : dot_S512x1024_S1024x1024_S512x1024_1_0_0_1_n_n.rhsIdx i ((ValueIdx.contrEquiv1 dot_S512x1024_S1024x1024_S512x1024_1_0_0_1_n_n 1024 rfl rfl).symm k) = ix2 k (i 1) := funext fun a => Fin.ext (by
    match a with
    | ⟨0, _⟩ => exact (rhs_sq_0 _ _).trans hk
    | ⟨1, _⟩ => exact rhs_sq_1 _ _)
  rw [el, er]
  rfl

end Cert.Gru.Kernel

end
-- ==== Proof.Payload.lean ====
/-
  The kernel body's one payload read at an index.

  Entry (p, q) of the block the body stores depends on row `p` of the two activation blocks and on the six resident
  operands: it is `cell` of those. The wide product contracts the row `[x | h]` (a concatenation along the lanes)
  with the stacked matrix; its two halves are the lane slices at offsets 0 and 1024; the two square products contract
  row `p` of `x`, and of `h` times the reset gate, with the candidate's matrices; each bias is one row broadcast down
  the block. A change of float format is the identity at the ideal values.
-/
import proofs.«420946_j21973052686473_3_alg».proof.Proof.Gen.KernelIdeal.Skeleton
import proofs.«420946_j21973052686473_3_alg».proof.Proof.Matmul
import proofs.«420946_j21973052686473_3_alg».proof.Proof.Spec
import Idealize.ShloMosaic.Lib.Pipeline.Value
import Idealize.ShloMosaic.Lib.ValueLayout
import Idealize.ShloMosaic.Lib.IdealHost

noncomputable section

namespace Cert.Gru.Kernel

open Cert.KernelIdeal Cert.KernelIdeal.Gen Idealize.ShloMosaic Idealize.ShloMosaic.ValueIdx Cert.Gru

/-- Two blocks laid side by side along the lanes, read at (p, k): the first for `k < 1024`, else the second at `k - 1024`. -/
theorem lanes_apply (a b : FVec Ideal S512x1024 .bf16) (p : Fin 512) (k : Fin 2048) :
    concatenate S512x2048 1 [⟨S512x1024, a⟩, ⟨S512x1024, b⟩] concatenates_S512x1024_S512x1024_S512x2048_d1 (ix2 p k)
      = cat (fun k => a (ix2 p k)) (fun k => b (ix2 p k)) k := by
  unfold cat
  by_cases hk : k.val < 1024
  · rw [dif_pos hk]
    exact concatenate_pair_apply_left (1 : Fin 2) a b concatenates_S512x1024_S512x1024_S512x2048_d1 (ix2 p k) rfl
      (ix2 p (⟨k.val, hk⟩ : Fin 1024)) (fun d => by
        match d with
        | ⟨0, _⟩ => rfl
        | ⟨1, _⟩ => rfl)
  · rw [dif_neg hk]
    exact concatenate_pair_apply_right (1 : Fin 2) a b concatenates_S512x1024_S512x1024_S512x2048_d1 (ix2 p k) rfl rfl
      (ix2 p (⟨k.val - 1024, by have := k.isLt; omega⟩ : Fin 1024)) (fun d hd => by
        match d with
        | ⟨0, _⟩ => rfl
        | ⟨1, _⟩ => exact absurd rfl hd)
      (by show (k.val - 1024) + 1024 = k.val; omega)

variable (v0 v1 : FVec Ideal S512x1024 .f32) (v5 : FVec Ideal S2048x2048 .bf16) (v8 : FVec Ideal S1x2048 .f32)
  (v18 v25 : FVec Ideal S1024x1024 .bf16) (v21 v28 : FVec Ideal S1x1024 .f32)

/-- The wide product plus its bias row, at (p, j): the stacked pre-activation `j` of row `p`. -/
theorem wide_apply (p : Fin 512) (j : Fin 2048) :
    addf (F := Ideal) (matmul dot_S512x2048_S2048x2048_S512x2048_1_0_0_1_n_n none
          (concatenate S512x2048 1 [⟨S512x1024, truncf .bf16 v0 bitsLt_bf16_f32⟩, ⟨S512x1024, truncf .bf16 v1 bitsLt_bf16_f32⟩]
            concatenates_S512x1024_S512x1024_S512x2048_d1)
          (shapeCast S2048x2048 v5 shapeCasts_S2048x2048_S2048x2048) (constant S512x2048 .f32 0x00000000#32))
        (broadcastTo S512x2048 (shapeCast S1x2048 v8 shapeCasts_S1x2048_S1x2048) broadcasts_S1x2048_S512x2048) (ix2 p j)
      = stacked (fun k => v0 (ix2 p k)) (fun k => v1 (ix2 p k)) v5 v8 j := by
  rw [addf_apply, matmul_wide_apply, shapeCast_self, shapeCast_self]
  unfold stacked
  refine congrArg₂ (· + ·) (Finset.sum_congr rfl fun k _ => ?_) ?_
  · rw [lanes_apply]
    rfl
  · exact broadcastTo_1b_ab_apply v8 broadcasts_S1x2048_S512x2048 p j

/-- A square product plus its bias row, at (p, q). -/
theorem sq_apply {φ : FTy} (l : FVec Ideal S512x1024 φ) (W : FVec Ideal S1024x1024 .bf16) (b : FVec Ideal S1x1024 .f32) (p : Fin 512) (q : Fin 1024) :
    addf (F := Ideal) (matmul dot_S512x1024_S1024x1024_S512x1024_1_0_0_1_n_n none l
          (shapeCast S1024x1024 W shapeCasts_S1024x1024_S1024x1024) (constant S512x1024 .f32 0x00000000#32))
        (broadcastTo S512x1024 (shapeCast S1x1024 b shapeCasts_S1x1024_S1x1024) broadcasts_S1x1024_S512x1024) (ix2 p q)
      = (∑ k : Fin 1024, l (ix2 p k) * W (ix2 k q)) + b (ix2 0 q) := by
  rw [addf_apply, matmul_sq_apply, shapeCast_self, shapeCast_self]
  exact congrArg₂ (· + ·) rfl (broadcastTo_1b_ab_apply b broadcasts_S1x1024_S512x1024 p q)

/-- The lane slice at offset 0 of a 512 × 2048 value, at (p, q). -/
theorem lo_apply (g : FVec Ideal S512x2048 .f32) (p : Fin 512) (q : Fin 1024) :
    extractStridedSlice S512x1024 ![0, 0] g slices_S512x2048_o0_0_S512x1024 (ix2 p q) = g (ix2 p (⟨q.val, by omega⟩ : Fin 2048)) :=
  extractStridedSlice_apply ![0, 0] g slices_S512x2048_o0_0_S512x1024 (ix2 p q) (ix2 p (⟨q.val, by omega⟩ : Fin 2048)) (fun d => by
    match d with
    | ⟨0, _⟩ => show p.val = 0 + p.val; omega
    | ⟨1, _⟩ => show q.val = 0 + q.val; omega)

/-- The lane slice at offset 1024, at (p, q). -/
theorem hi_apply (g : FVec Ideal S512x2048 .f32) (p : Fin 512) (q : Fin 1024) :
    extractStridedSlice S512x1024 ![0, 1024] g slices_S512x2048_o0_1024_S512x1024 (ix2 p q) = g (ix2 p (⟨1024 + q.val, by omega⟩ : Fin 2048)) :=
  extractStridedSlice_apply ![0, 1024] g slices_S512x2048_o0_1024_S512x1024 (ix2 p q) (ix2 p (⟨1024 + q.val, by omega⟩ : Fin 2048)) (fun d => by
    match d with
    | ⟨0, _⟩ => show p.val = 0 + p.val; omega
    | ⟨1, _⟩ => show 1024 + q.val = 1024 + q.val; rfl)

/-- THE PAYLOAD AT AN INDEX: entry (p, q) of the stored block is the cell's output `q` on row `p` of the two activation
    blocks, over the resident operands. -/
theorem pay_apply (p : Fin 512) (q : Fin 1024) :
    k0_pay1 (F := Ideal) v0 v1 v5 v8 v18 v21 v25 v28 (ix2 p q)
      = cell (fun k => v0 (ix2 p k)) (fun k => v1 (ix2 p k)) v5 v8 v18 v25 v21 v28 q := by
  unfold k0_pay1
  try dsimp only
  rw [addf_apply, mulf_apply, mulf_apply, subf_apply, broadcast_apply]
  unfold cell
  show v1 (ix2 p q) + ((Ideal.ofBits .f32 0x3F800000#32 - v1 (ix2 p q)) * _) * _ = _
  rw [Ideal.ofBits_one_f32]
  refine congrArg₂ (· + ·) rfl (congrArg₂ (· * ·) (congrArg₂ (· * ·) rfl ?_) ?_)
  · exact congrArg Ideal.logistic ((hi_apply _ p q).trans (wide_apply v0 v1 v5 v8 p _))
  · refine congrArg Ideal.logistic ((congrArg₂ (· + ·) (sq_apply _ v18 v21 p q) (sq_apply _ v25 v28 p q)).trans ?_)
    refine congrArg₂ (· + ·) rfl (congrArg₂ (· + ·) (Finset.sum_congr rfl fun k _ => ?_) rfl)
    exact congrArg₂ (· * ·) (congrArg₂ (· * ·) rfl (congrArg Ideal.logistic ((lo_apply _ p k).trans (wide_apply v0 v1 v5 v8 p _)))) rfl

end Cert.Gru.Kernel

end
-- ==== Proof.HostPrep.lean ====
/-
  What the host operations before the kernel's region leave in the six resident operands, read at an index from the
  argument arrays. The stacked matrix holds `Wi[j, k]` at (k, j) and `Wh[j, k]` at (1024 + k, j) for the first 2048
  weight rows `j` (two row slices, transposed, concatenated along the rows); the stacked bias is `bi[j] + bh[j]`; the
  candidate's matrices hold `Wi[2048 + q, k]` and `Wh[2048 + q, k]` at (k, q); its biases are entries 2048 + q. The
  conversions to bf16 are the identity at the ideal values.
-/
import proofs.«420946_j21973052686473_3_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.Gru.Kernel

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The argument arrays of core `c`, as launched. -/
abbrev argX (c : Dev nD) : S16384x1024.Idx → EReal := m ((c : Thread nD τ).loc main_arg0)
abbrev argH (c : Dev nD) : S16384x1024.Idx → EReal := m ((c : Thread nD τ).loc main_arg1)
abbrev argWi (c : Dev nD) : S3072x1024.Idx → EReal := m ((c : Thread nD τ).loc main_arg2)
abbrev argBi (c : Dev nD) : S3072.Idx → EReal := m ((c : Thread nD τ).loc main_arg3)
abbrev argWh (c : Dev nD) : S3072x1024.Idx → EReal := m ((c : Thread nD τ).loc main_arg4)
abbrev argBh (c : Dev nD) : S3072.Idx → EReal := m ((c : Thread nD τ).loc main_arg5)

/-! ## The operands as terms of the arguments -/

/-- A transposed row slice of a weight matrix: rows `off …` of `W`, with the two axes exchanged. -/
theorem stackedW_eq (c : Dev nD) : (V m c main_v5 : S2048x2048.Idx → EReal)
    = concatenate S2048x2048 0
        [⟨S1024x2048, transpose S1024x2048 [1, 0] (extractStridedSlice S2048x1024 ![0, 0] (argWi m c) slices_S3072x1024_S2048x1024_0_0) transposes_S2048x1024_S1024x2048_1_0⟩,
         ⟨S1024x2048, transpose S1024x2048 [1, 0] (extractStridedSlice S2048x1024 ![0, 0] (argWh m c) slices_S3072x1024_S2048x1024_0_0) transposes_S2048x1024_S1024x2048_1_0⟩]
        concatenates_S1024x2048_S1024x2048_S2048x2048_d0 := by
  dsimp only [V, hostOps0]
  after_results
  all_goals rfl

theorem stackedB_eq (c : Dev nD) : (V m c main_v9 : S1x2048.Idx → EReal)
    = shapeCast S1x2048 (addf (F := Ideal) (φ := .f32) (extractStridedSlice S2048 ![0] (argBi m c) slices_S3072_S2048_0)
        (extractStridedSlice S2048 ![0] (argBh m c) slices_S3072_S2048_0)) shapeCasts_S2048_S1x2048 := by
  dsimp only [V, hostOps0]
  after_results
  all_goals rfl

theorem candWi_eq (c : Dev nD) : (V m c main_v12 : S1024x1024.Idx → EReal)
    = transpose S1024x1024 [1, 0] (extractStridedSlice S1024x1024 ![2048, 0] (argWi m c) slices_S3072x1024_S1024x1024_2048_0)
        transposes_S1024x1024_S1024x1024_1_0 := by
  dsimp only [V, hostOps0]
  after_results
  all_goals rfl

theorem candWh_eq (c : Dev nD) : (V m c main_v15 : S1024x1024.Idx → EReal)
    = transpose S1024x1024 [1, 0] (extractStridedSlice S1024x1024 ![2048, 0] (argWh m c) slices_S3072x1024_S1024x1024_2048_0)
        transposes_S1024x1024_S1024x1024_1_0 := by
  dsimp only [V, hostOps0]
  after_results
  all_goals rfl

theorem candBi_eq (c : Dev nD) : (V m c main_v17 : S1x1024.Idx → EReal)
    = shapeCast S1x1024 (extractStridedSlice S1024 ![2048] (argBi m c) slices_S3072_S1024_2048) shapeCasts_S1024_S1x1024 := by
  dsimp only [V, hostOps0]
  after_results
  all_goals rfl

theorem candBh_eq (c : Dev nD) : (V m c main_v19 : S1x1024.Idx → EReal)
    = shapeCast S1x1024 (extractStridedSlice S1024 ![2048] (argBh m c) slices_S3072_S1024_2048) shapeCasts_S1024_S1x1024 := by
  dsimp only [V, hostOps0]
  after_results
  all_goals rfl

/-! ## The layout operations at an index -/

/-- Rows 0–2047 of a weight matrix, transposed, at (k, j): the matrix at (j, k). -/
theorem topT_apply (W : S3072x1024.Idx → EReal) (k : Fin 1024) (j : Fin 2048) :
    transpose S1024x2048 [1, 0] (extractStridedSlice S2048x1024 ![0, 0] W slices_S3072x1024_S2048x1024_0_0) transposes_S2048x1024_S1024x2048_1_0 (ix2 k j)
      = W (ix2 (⟨j.val, by omega⟩ : Fin 3072) k) := by
  refine (transpose_apply [1, 0] _ transposes_S2048x1024_S1024x2048_1_0 (ix2 k j) (ix2 j k) (fun b => by
    match b with
    | ⟨0, _⟩ => rfl
    | ⟨1, _⟩ => rfl)).trans ?_
  exact extractStridedSlice_apply ![0, 0] W slices_S3072x1024_S2048x1024_0_0 (ix2 j k) (ix2 (⟨j.val, by omega⟩ : Fin 3072) k) (fun d => by
    match d with
    | ⟨0, _⟩ => show j.val = 0 + j.val; omega
    | ⟨1, _⟩ => show k.val = 0 + k.val; omega)

/-- Rows 2048–3071 of a weight matrix, transposed, at (k, q): the matrix at (2048 + q, k). -/
theorem botT_apply (W : S3072x1024.Idx → EReal) (k q : Fin 1024) :
    transpose S1024x1024 [1, 0] (extractStridedSlice S1024x1024 ![2048, 0] W slices_S3072x1024_S1024x1024_2048_0) transposes_S1024x1024_S1024x1024_1_0 (ix2 k q)
      = W (ix2 (⟨2048 + q.val, by omega⟩ : Fin 3072) k) := by
  refine (transpose_apply [1, 0] _ transposes_S1024x1024_S1024x1024_1_0 (ix2 k q) (ix2 q k) (fun b => by
    match b with
    | ⟨0, _⟩ => rfl
    | ⟨1, _⟩ => rfl)).trans ?_
  exact extractStridedSlice_apply ![2048, 0] W slices_S3072x1024_S1024x1024_2048_0 (ix2 q k) (ix2 (⟨2048 + q.val, by omega⟩ : Fin 3072) k) (fun d => by
    match d with
    | ⟨0, _⟩ => show 2048 + q.val = 2048 + q.val; rfl
    | ⟨1, _⟩ => show k.val = 0 + k.val; omega)

/-- Two 1024-row pieces stacked along the rows, read in the first piece. -/
theorem rows_top (A B : S1024x2048.Idx → EReal) (k : Fin 1024) (j : Fin 2048) :
    concatenate S2048x2048 0 [⟨S1024x2048, A⟩, ⟨S1024x2048, B⟩] concatenates_S1024x2048_S1024x2048_S2048x2048_d0 (ix2 (⟨k.val, by omega⟩ : Fin 2048) j)
      = A (ix2 k j) :=
  concatenate_pair_apply_left (0 : Fin 2) A B concatenates_S1024x2048_S1024x2048_S2048x2048_d0 (ix2 (⟨k.val, by omega⟩ : Fin 2048) j) rfl
    (ix2 k j) (fun d => by
      match d with
      | ⟨0, _⟩ => rfl
      | ⟨1, _⟩ => rfl)

/-- The same read in the second piece: row 1024 + k is the second piece's row k. -/
theorem rows_bot (A B : S1024x2048.Idx → EReal) (k : Fin 1024) (j : Fin 2048) :
    concatenate S2048x2048 0 [⟨S1024x2048, A⟩, ⟨S1024x2048, B⟩] concatenates_S1024x2048_S1024x2048_S2048x2048_d0 (ix2 (⟨1024 + k.val, by omega⟩ : Fin 2048) j)
      = B (ix2 k j) :=
  concatenate_pair_apply_right (0 : Fin 2) A B concatenates_S1024x2048_S1024x2048_S2048x2048_d0 (ix2 (⟨1024 + k.val, by omega⟩ : Fin 2048) j) rfl rfl
    (ix2 k j) (fun d hd => by
      match d with
      | ⟨0, _⟩ => exact absurd rfl hd
      | ⟨1, _⟩ => rfl)
    (by show k.val + 1024 = 1024 + k.val; omega)

/-! ## The operands at an index -/

theorem stackedW_top (c : Dev nD) (k : Fin 1024) (j : Fin 2048) :
    (V m c main_v5 : S2048x2048.Idx → EReal) (ix2 (⟨k.val, by omega⟩ : Fin 2048) j) = argWi m c (ix2 (⟨j.val, by omega⟩ : Fin 3072) k) := by
  rw [stackedW_eq]
  exact (rows_top _ _ k j).trans (topT_apply (argWi m c) k j)

theorem stackedW_bot (c : Dev nD) (k : Fin 1024) (j : Fin 2048) :
    (V m c main_v5 : S2048x2048.Idx → EReal) (ix2 (⟨1024 + k.val, by omega⟩ : Fin 2048) j) = argWh m c (ix2 (⟨j.val, by omega⟩ : Fin 3072) k) := by
  rw [stackedW_eq]
  exact (rows_bot _ _ k j).trans (topT_apply (argWh m c) k j)

theorem stackedB_apply (c : Dev nD) (j : Fin 2048) :
    (V m c main_v9 : S1x2048.Idx → EReal) (ix2 0 j) = argBi m c (ix1 (⟨j.val, by omega⟩ : Fin 3072)) + argBh m c (ix1 (⟨j.val, by omega⟩ : Fin 3072)) := by
  rw [stackedB_eq]
  refine (shapeCast_a_1a_apply _ shapeCasts_S2048_S1x2048 (0 : Fin 1) j).trans ?_
  refine congrArg₂ (· + ·) ?_ ?_
  · exact extractStridedSlice_apply ![0] (argBi m c) slices_S3072_S2048_0 (ix1 j) (ix1 (⟨j.val, by omega⟩ : Fin 3072)) (fun d => by
      match d with
      | ⟨0, _⟩ => show j.val = 0 + j.val; omega)
  · exact extractStridedSlice_apply ![0] (argBh m c) slices_S3072_S2048_0 (ix1 j) (ix1 (⟨j.val, by omega⟩ : Fin 3072)) (fun d => by
      match d with
      | ⟨0, _⟩ => show j.val = 0 + j.val; omega)

theorem candWi_apply (c : Dev nD) (k q : Fin 1024) :
    (V m c main_v12 : S1024x1024.Idx → EReal) (ix2 k q) = argWi m c (ix2 (⟨2048 + q.val, by omega⟩ : Fin 3072) k) := by
  rw [candWi_eq]
  exact botT_apply (argWi m c) k q

theorem candWh_apply (c : Dev nD) (k q : Fin 1024) :
    (V m c main_v15 : S1024x1024.Idx → EReal) (ix2 k q) = argWh m c (ix2 (⟨2048 + q.val, by omega⟩ : Fin 3072) k) := by
  rw [candWh_eq]
  exact botT_apply (argWh m c) k q

theorem candBi_apply (c : Dev nD) (q : Fin 1024) :
    (V m c main_v17 : S1x1024.Idx → EReal) (ix2 0 q) = argBi m c (ix1 (⟨2048 + q.val, by omega⟩ : Fin 3072)) := by
  rw [candBi_eq]
  refine (shapeCast_a_1a_apply _ shapeCasts_S1024_S1x1024 (0 : Fin 1) q).trans ?_
  exact extractStridedSlice_apply ![2048] (argBi m c) slices_S3072_S1024_2048 (ix1 q) (ix1 (⟨2048 + q.val, by omega⟩ : Fin 3072)) (fun d => by
    match d with
    | ⟨0, _⟩ => show 2048 + q.val = 2048 + q.val; rfl)

theorem candBh_apply (c : Dev nD) (q : Fin 1024) :
    (V m c main_v19 : S1x1024.Idx → EReal) (ix2 0 q) = argBh m c (ix1 (⟨2048 + q.val, by omega⟩ : Fin 3072)) := by
  rw [candBh_eq]
  refine (shapeCast_a_1a_apply _ shapeCasts_S1024_S1x1024 (0 : Fin 1) q).trans ?_
  exact extractStridedSlice_apply ![2048] (argBh m c) slices_S3072_S1024_2048 (ix1 q) (ix1 (⟨2048 + q.val, by omega⟩ : Fin 3072)) (fun d => by
    match d with
    | ⟨0, _⟩ => show 2048 + q.val = 2048 + q.val; rfl)

end Cert.Gru.Kernel

end
-- ==== Proof.Blocks.lean ====
/-
  From the blocks to the whole array, and the kernel's run.

  Grid point `t` of the 32 stages rows 512·t … 512·t + 511 of the input and of the state, all of each resident operand,
  and writes back rows 512·t … of the result. So what point `t` writes back is block `t` of ONE function of the arrays
  the region finds (`regionResult`: entry (b, q) is the cell on row `b`), the 32 blocks cover the result array (row `b`
  lies in block `b / 512`), and the array after the run is that function. Reading the resident operands from the
  arguments turns it into the specification of the argument arrays.
-/
import proofs.«420946_j21973052686473_3_alg».proof.Proof.Gen.KernelIdeal.Value
import proofs.«420946_j21973052686473_3_alg».proof.Proof.Payload
import proofs.«420946_j21973052686473_3_alg».proof.Proof.HostPrep

set_option maxRecDepth 16384

noncomputable section

namespace Cert.Gru.Kernel

open Cert.KernelIdeal Cert.KernelIdeal.Gen Cert.KernelIdeal.Value Idealize.ShloMosaic Idealize.ShloMosaic.TcCoe Idealize.SL.Sem
open Idealize.ShloMosaic.ValueIdx Cert.Gru
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The printed index maps over the 32 points: the two activation windows and the result window sit at block row `t`,
    block column 0; every resident operand at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem point_lt (t : Fin cfg0.N) : t.val < 32 := lt_of_lt_of_eq t.isLt N_0

/-- Row `p` of block `t` is row 512·t + p of the array. -/
def rowOf (t : Fin cfg0.N) (p : Fin 512) : Fin 16384 :=
  ⟨512 * t.val + p.val, by have h := point_lt t; have := p.isLt; omega⟩

/-! ## The windows' blocks read from their arrays -/

/-- Entry (p, k) of the input's block at point `t`. -/
theorem blk0 (c : Dev nD) (t : Fin cfg0.N) (p : Fin 512) (k : Fin 1024) :
    iblk m c 0 t (ix2 p k) = V m c main_arg0 (ix2 (rowOf t p) k) := by
  show V m c main_arg0 (((cfg0.win 0).blk t).view.emb (ix2 p k)) = V m c main_arg0 (ix2 (rowOf t p) k)
  obtain ⟨e0, e1, -⟩ := idx_facts t
  refine congrArg _ (funext fun a => Fin.ext ?_)
  match a with
  | ⟨0, _⟩ => show win0_0.index t (0 : Fin 2) * 512 + 1 * p.val = 512 * t.val + p.val; omega
  | ⟨1, _⟩ => show win0_0.index t (1 : Fin 2) * 1024 + 1 * k.val = k.val; omega

/-- Entry (p, k) of the state's block at point `t`. -/
theorem blk1 (c : Dev nD) (t : Fin cfg0.N) (p : Fin 512) (k : Fin 1024) :
    iblk m c 1 t (ix2 p k) = V m c main_arg1 (ix2 (rowOf t p) k) := by
  show V m c main_arg1 (((cfg0.win 1).blk t).view.emb (ix2 p k)) = V m c main_arg1 (ix2 (rowOf t p) k)
  obtain ⟨-, -, e0, e1, -⟩ := idx_facts t
  refine congrArg _ (funext fun a => Fin.ext ?_)
  match a with
  | ⟨0, _⟩ => show win0_1.index t (0 : Fin 2) * 512 + 1 * p.val = 512 * t.val + p.val; omega
  | ⟨1, _⟩ => show win0_1.index t (1 : Fin 2) * 1024 + 1 * k.val = k.val; omega

/-- Window 2 stages its whole array at every point. -/
theorem blk2 (c : Dev nD) (t : Fin cfg0.N) : iblk m c 2 t = V m c main_v5 := by
  funext y
  show V m c main_v5 (((cfg0.win 2).blk t).view.emb y) = V m c main_v5 y
  obtain ⟨-, -, -, -, -, -, e0, e1, -, -, -, -, -, -, -, -, -, -⟩ := idx_facts t
  refine congrArg _ (funext fun a => Fin.ext ?_)
  match a with
  | ⟨0, _⟩ => show win0_2.index t (0 : Fin 2) * 2048 + 1 * (y 0).val = (y 0).val; omega
  | ⟨1, _⟩ => show win0_2.index t (1 : Fin 2) * 2048 + 1 * (y 1).val = (y 1).val; omega

/-- Window 3 stages its whole array at every point. -/
theorem blk3 (c : Dev nD) (t : Fin cfg0.N) : iblk m c 3 t = V m c main_v9 := by
  funext y
  show V m c main_v9 (((cfg0.win 3).blk t).view.emb y) = V m c main_v9 y
  obtain ⟨-, -, -, -, -, -, -, -, e0, e1, -, -, -, -, -, -, -, -⟩ := idx_facts t
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 2048 + 1 * (y 1).val = (y 1).val; omega

/-- Window 4 stages its whole array at every point. -/
theorem blk4 (c : Dev nD) (t : Fin cfg0.N) : iblk m c 4 t = V m c main_v12 := by
  funext y
  show V m c main_v12 (((cfg0.win 4).blk t).view.emb y) = V m c main_v12 y
  obtain ⟨-, -, -, -, -, -, -, -, -, -, e0, e1, -, -, -, -, -, -⟩ := idx_facts t
  refine congrArg _ (funext fun a => Fin.ext ?_)
  match a with
  | ⟨0, _⟩ => show win0_4.index t (0 : Fin 2) * 1024 + 1 * (y 0).val = (y 0).val; omega
  | ⟨1, _⟩ => show win0_4.index t (1 : Fin 2) * 1024 + 1 * (y 1).val = (y 1).val; omega

/-- Window 5 stages its whole array at every point. -/
theorem blk5 (c : Dev nD) (t : Fin cfg0.N) : iblk m c 5 t = V m c main_v15 := by
  funext y
  show V m c main_v15 (((cfg0.win 5).blk t).view.emb y) = V m c main_v15 y
  obtain ⟨-, -, -, -, -, -, -, -, -, -, -, -, e0, e1, -, -, -, -⟩ := idx_facts t
  refine congrArg _ (funext fun a => Fin.ext ?_)
  match a with
  | ⟨0, _⟩ => show win0_5.index t (0 : Fin 2) * 1024 + 1 * (y 0).val = (y 0).val; omega
  | ⟨1, _⟩ => show win0_5.index t (1 : Fin 2) * 1024 + 1 * (y 1).val = (y 1).val; omega

/-- Window 6 stages its whole array at every point. -/
theorem blk6 (c : Dev nD) (t : Fin cfg0.N) : iblk m c 6 t = V m c main_v17 := by
  funext y
  show V m c main_v17 (((cfg0.win 6).blk t).view.emb y) = V m c main_v17 y
  obtain ⟨-, -, -, -, -, -, -, -, -, -, -, -, -, -, e0, e1, -, -⟩ := idx_facts t
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 1024 + 1 * (y 1).val = (y 1).val; omega

/-- Window 7 stages its whole array at every point. -/
theorem blk7 (c : Dev nD) (t : Fin cfg0.N) : iblk m c 7 t = V m c main_v19 := by
  funext y
  show V m c main_v19 (((cfg0.win 7).blk t).view.emb y) = V m c main_v19 y
  obtain ⟨-, -, -, -, -, -, -, -, -, -, -, -, -, -, -, -, e0, e1⟩ := idx_facts t
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 1024 + 1 * (y 1).val = (y 1).val; omega

/-- Entry (p, q) of the result's block at point `t` is entry (512·t + p, q) of the array. -/
theorem emb8 (t : Fin cfg0.N) (p : Fin 512) (q : Fin 1024) :
    ((cfg0.win 8).blk t).view.emb (ix2 p q) = ix2 (rowOf t p) q := by
  obtain ⟨-, -, -, -, e0, e1, -⟩ := idx_facts t
  refine funext fun a => Fin.ext ?_
  match a with
  | ⟨0, _⟩ => show win0_8.index t (0 : Fin 2) * 512 + 1 * p.val = 512 * t.val + p.val; omega
  | ⟨1, _⟩ => show win0_8.index t (1 : Fin 2) * 1024 + 1 * q.val = q.val; omega

/-! ## What a point writes back -/

/-- The result as ONE function of the arrays the region finds: entry (b, q) is the cell on row `b`. -/
def regionResult (c : Dev nD) : S16384x1024.Idx → EReal := fun i =>
  cell (row (V m c main_arg0) (i 0)) (row (V m c main_arg1) (i 0)) (V m c main_v5) (V m c main_v9) (V m c main_v12)
    (V m c main_v15) (V m c main_v17) (V m c main_v19) (i 1)

/-- WHAT POINT `t` WRITES BACK is block `t` of `regionResult`. -/
theorem flushed_eq (c : Dev nD) (t : Fin cfg0.N) :
    (dats m 0 c).flushed 8 t = ((cfg0.win 8).blk t).view.read (Elt Ideal) (regionResult m c) := by
  rw [flushed8]
  unfold out0_8
  rw [View.canon_unit_zero offsets_zero]
  simp only [View.ld_unit_zero (S := S512x1024) offsets_zero, View.ld_unit_zero (S := S2048x2048) offsets_zero,
    View.ld_unit_zero (S := S1x2048) offsets_zero, View.ld_unit_zero (S := S1024x1024) offsets_zero,
    View.ld_unit_zero (S := S1x1024) offsets_zero]
  refine funext fun (j : S512x1024.Idx) => ?_
  obtain ⟨p, q, rfl⟩ : ∃ (p : Fin 512) (q : Fin 1024), j = ix2 p q := ⟨j 0, j 1, eq_ix2 j⟩
  show k0_pay1 (F := Ideal) (iblk m c 0 t) (iblk m c 1 t) (iblk m c 2 t) (iblk m c 3 t) (iblk m c 4 t) (iblk m c 6 t)
      (iblk m c 5 t) (iblk m c 7 t) (ix2 p q) = regionResult m c (((cfg0.win 8).blk t).view.emb (ix2 p q))
  refine (pay_apply (iblk m c 0 t) (iblk m c 1 t) (iblk m c 2 t) (iblk m c 3 t) (iblk m c 4 t) (iblk m c 5 t)
    (iblk m c 6 t) (iblk m c 7 t) p q).trans ?_
  have h0 : (fun k => iblk m c 0 t (ix2 p k)) = row (V m c main_arg0) (rowOf t p) := funext fun k => blk0 m c t p k
  have h1 : (fun k => iblk m c 1 t (ix2 p k)) = row (V m c main_arg1) (rowOf t p) := funext fun k => blk1 m c t p k
  rw [h0, h1, blk2 m c t, blk3 m c t, blk4 m c t, blk5 m c t, blk6 m c t, blk7 m c t, emb8 t p q]
  rfl

/-! ## The cover, and the array after the run -/

/-- An index of the result array is in point `t`'s block iff each coordinate is in the block's range. -/
theorem mem_blk8 (t : Fin cfg0.N) (i : S16384x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v20).slice (win0_8.rect t)).set ↔ _
  rw [View.set_slice_whole, Rect.mem_set_unit]
  exact Iff.rfl

/-- Every index of the result array lies in the block of the point `row / 512`. -/
theorem covered (i : S16384x1024.Idx) :
    ∃ t : Fin cfg0.N, (cfg0.win 8).flush t = true ∧ i ∈ ((cfg0.win 8).blk t).view.set := by
  have hi0 : (i 0).val < 16384 := (i 0).isLt
  have hi1 : (i 1).val < 1024 := (i 1).isLt
  have ht : (i 0).val / 512 < cfg0.N := by show (i 0).val / 512 < grid0.N; rw [N_0]; omega
  obtain ⟨-, -, -, -, e0, e1, -⟩ := idx_facts ⟨(i 0).val / 512, ht⟩
  refine ⟨⟨(i 0).val / 512, ht⟩, flush0_8 _, ?_⟩
  rw [mem_blk8]
  intro a
  match a with
  | ⟨0, _⟩ =>
    show win0_8.index ⟨(i 0).val / 512, ht⟩ (0 : Fin 2) * 512 ≤ (i 0).val ∧ (i 0).val < win0_8.index ⟨(i 0).val / 512, ht⟩ (0 : Fin 2) * 512 + 512
    have e0' : win0_8.index ⟨(i 0).val / 512, ht⟩ (0 : Fin 2) = (i 0).val / 512 := e0
    omega
  | ⟨1, _⟩ =>
    show win0_8.index ⟨(i 0).val / 512, ht⟩ (1 : Fin 2) * 1024 ≤ (i 1).val ∧ (i 1).val < win0_8.index ⟨(i 0).val / 512, ht⟩ (1 : Fin 2) * 1024 + 1024
    omega

/-- THE ARRAY after the run is `regionResult`. -/
theorem final_region (c : Dev nD) : (dats m 0 c).arrAt 8 cfg0.N = regionResult m c :=
  (dats m 0 c).arrAt_eq_of_cover 8 (regionResult m c) (fun t _ => flushed_eq m c t) covered

/-- … which is the specification of the argument arrays: the resident operands are read from the arguments, and the
    two activation arrays are as launched. -/
theorem regionResult_eq (c : Dev nD) :
    regionResult m c = specArr (argX m c) (argH m c) (argWi m c) (argWh m c) (argBi m c) (argBh m c) := by
  funext i
  unfold regionResult specArr
  rw [V_main_arg0, V_main_arg1]
  exact cell_eq_spec _ _ _ _ _ _ _ _ _ _ _ _ (stackedW_top m c) (stackedW_bot m c) (stackedB_apply m c)
    (candWi_apply m c) (candWh_apply m c) (candBi_apply m c) (candBh_apply m c) (i 1)

/-- The kernel's run: every weakly fair execution terminates with the result array at the specification of the
    argument arrays, the arguments unchanged. -/
theorem run : θ_run defs (onTc (τ := τ) (main (F := Ideal))) ⟨m, fun _ => 0, ρ⟩ fun r => ∀ c : Dev nD,
      r.2.mem ((c : Thread nD τ).loc main_v20) = specArr (argX m c) (argH m c) (argWi m c) (argWh m c) (argBi m c) (argBh m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final_region m c).trans (regionResult_eq m c)), (h c).2⟩)
    (run_blocks m ρ)

end Cert.Gru.Kernel

end
-- ==== Proof.lean ====
/-
  A gated recurrent cell — `hy = h + (1 − h) · z · n` with `r = σ(…)`, `z = σ(…)`, `n = σ(i_n + ((h ⊙ r) Whₙᵀ + bhₙ))` —
  as one tiled kernel against the plain jnp reference, equal over the extended reals.

  The kernel tiles the 16384 batch rows into 32 blocks of 512. Outside the kernel it transposes and stacks the reset
  and update blocks of the two weight matrices into one 2048 × 2048 matrix, adds the two bias vectors of those
  blocks, and transposes the candidate's blocks; inside, one wide product of the row `[x | h]` with the stacked
  matrix gives both gates' pre-activations at once. The reference computes `x Wiᵀ + bi` and `h Whᵀ + bh` whole and adds
  their column blocks. The two agree because a sum over the 2048 stacked lanes splits into its two halves and
  `(A + B) + (c + d) = (A + c) + (B + d)` in any commutative monoid: no cancellation and no distributivity is used, so
  the precondition (finite inputs) is never opened. The kernel's logistic operation and the reference's expanded
  `1 / (1 + e^(-y))` are one function of the extended reals; changes of float format are the identity there.

  Modules: Spec (the cell as mathematics, and the law joining the stacked form to the plain one), RefSpec (the
  reference's stages read at an index), Matmul and Payload (the kernel body's payload read at an index), HostPrep
  (the operands prepared before the kernel, read at an index), Blocks (blocks to array, and the kernel's run).
  The three frames are the generated ones; the idealization rewrote nothing, so `preserves` is trivial.
-/
import proofs.«420946_j21973052686473_3_alg».proof.Defs
import proofs.«420946_j21973052686473_3_alg».proof.Proof.Gen.Kernel
import proofs.«420946_j21973052686473_3_alg».proof.Proof.Gen.Kernel.Skeleton
import proofs.«420946_j21973052686473_3_alg».proof.Proof.Gen.Kernel.Launch
import proofs.«420946_j21973052686473_3_alg».proof.Proof.Gen.Kernel.Points
import proofs.«420946_j21973052686473_3_alg».proof.Proof.Gen.Kernel.Frame
import proofs.«420946_j21973052686473_3_alg».proof.Proof.Gen.KernelIdeal
import proofs.«420946_j21973052686473_3_alg».proof.Proof.Gen.KernelIdeal.Skeleton
import proofs.«420946_j21973052686473_3_alg».proof.Proof.Gen.KernelIdeal.Launch
import proofs.«420946_j21973052686473_3_alg».proof.Proof.Gen.KernelIdeal.Points
import proofs.«420946_j21973052686473_3_alg».proof.Proof.Gen.KernelIdeal.Frame
import proofs.«420946_j21973052686473_3_alg».proof.Proof.Gen.ReferenceIdeal
import proofs.«420946_j21973052686473_3_alg».proof.Proof.Gen.Pre_finite_inputs
import proofs.«420946_j21973052686473_3_alg».proof.Proof.Gen.KernelIdeal.Value
import proofs.«420946_j21973052686473_3_alg».proof.Proof.Gen.ReferenceIdeal.Run
import proofs.«420946_j21973052686473_3_alg».proof.Proof.Gen.ReferenceIdeal.Read
import proofs.«420946_j21973052686473_3_alg».proof.Proof.RefSpec
import proofs.«420946_j21973052686473_3_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_kernel : Cert.frame_Kernel := fun m ρ _ => Cert.Kernel.Gen.frame m ρ

/-- The same at the ideal values. -/
theorem frame_kernelIdeal : Cert.frame_KernelIdeal := fun m ρ _ => Cert.KernelIdeal.Gen.frame m ρ

/-- The reference runs and leaves its arguments as they were: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the six arguments, the kernel's result array and the reference's both end at the
    specification of those arguments. -/
theorem algebraic : Cert.algebraic_KernelIdeal_ReferenceIdeal := by
  intro m ρ m' ρ' _ hagree
  refine ⟨fun c => Cert.Gru.specArr (Cert.Gru.Kernel.argX m c) (Cert.Gru.Kernel.argH m c) (Cert.Gru.Kernel.argWi m c)
    (Cert.Gru.Kernel.argWh m c) (Cert.Gru.Kernel.argBi m c) (Cert.Gru.Kernel.argBh m c), Cert.Gru.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v49_eq, Cert.Gru.Ref.result_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
